-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S50000x128 .f32) (main_arg1 : IVec S2x800000 32) (main_arg2 : FVec F S128x128 .f32) (main_arg3 : FVec F S128 .f32) (main_arg4 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 40
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S128x128, .f32⟩
  | .hbm, ⟨35, _⟩ => ⟨S128x128, .bf16⟩
  | .hbm, ⟨36, _⟩ => ⟨S128x128, .f32⟩
  | .hbm, ⟨37, _⟩ => ⟨S128x128, .bf16⟩
  | .hbm, ⟨38, _⟩ => ⟨S1x128, .f32⟩
  | .hbm, ⟨39, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S5000x128, .f32⟩
  | .local _ .vmem, ⟨8, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 52
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S128x128, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S128x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000, .f32⟩
  | .hbm, ⟨45, _⟩ => ⟨S50000x1, .f32⟩
  | .hbm, ⟨46, _⟩ => ⟨S50000x1, .f32⟩
  | .hbm, ⟨47, _⟩ => ⟨S_, .f32⟩
  | .hbm, ⟨48, _⟩ => ⟨S50000x1, .f32⟩
  | .hbm, ⟨49, _⟩ => ⟨S50000x1, .f32⟩
  | .hbm, ⟨50, _⟩ => ⟨S50000x128, .f32⟩
  | .hbm, ⟨51, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_v0 : Ref sig .tc := ⟨.hbm, 42, rfl⟩
abbrev main_call0_cst : Ref sig .tc := ⟨.hbm, 43, rfl⟩
abbrev main_call0_v1 : Ref sig .tc := ⟨.hbm, 44, rfl⟩
abbrev main_call0_v2 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  A graph layer's dense stage, as a function on the extended reals.
  Each output row is an affine image of two input rows — the row of neighbourhood means times one weight matrix,
  plus the node's own row times another, plus a bias row — and is then divided by the larger of its Euclidean
  length and a small positive floor.  Everything is stated per row, so the same definitions serve an array of
  any number of rows; a block of consecutive rows of the big array is the function of the same block of inputs.
-/
import Idealize.ShloMosaic.Lib.ValueIdx
import Idealize.ShloMosaic.PureOps.Ideal

noncomputable section

namespace Cert.SageNorm

open Idealize.ShloMosaic Idealize.ShloMosaic.ValueIdx

/-- The floor the row length is compared with: the value of the word `0x2B8CBCCC` (about 1e-12). -/
def floorVal : EReal := Ideal.ofBits .f32 0x2B8CBCCC#32

variable {M : Nat}

/-- Entry (r, c) of the affine stage: `∑ₖ a(r,k)·wl(k,c) + ∑ₖ x(r,k)·wr(k,c) + b(c)`. -/
def linAt (a x : (⟨2, ![M, 128]⟩ : Shape).Idx → EReal) (wl wr : (⟨2, ![128, 128]⟩ : Shape).Idx → EReal)
    (b : Fin 128 → EReal) (r : Fin M) (c : Fin 128) : EReal :=
  ((∑ k : Fin 128, a (ix2 r k) * wl (ix2 k c)) + ∑ k : Fin 128, x (ix2 r k) * wr (ix2 k c)) + b c

/-- Entry (r, c) of a row-normalised matrix: the entry over the larger of the row's length
    `sqrt (∑ c', o(r,c')²)` and the floor. -/
def unitAt (o : Fin M → Fin 128 → EReal) (r : Fin M) (c : Fin 128) : EReal :=
  Ideal.div (o r c) (max (Ideal.sqrt (∑ c' : Fin 128, o r c' * o r c')) floorVal)

/-- The whole stage as an array: the affine map, then each row normalised. -/
def sage (a x : (⟨2, ![M, 128]⟩ : Shape).Idx → EReal) (wl wr : (⟨2, ![128, 128]⟩ : Shape).Idx → EReal)
    (b : Fin 128 → EReal) : (⟨2, ![M, 128]⟩ : Shape).Idx → EReal :=
  fun j => unitAt (linAt a x wl wr b) (j 0) (j 1)

theorem sage_ix2 (a x : (⟨2, ![M, 128]⟩ : Shape).Idx → EReal) (wl wr : (⟨2, ![128, 128]⟩ : Shape).Idx → EReal)
    (b : Fin 128 → EReal) (r : Fin M) (c : Fin 128) :
    sage a x wl wr b (ix2 r c) = unitAt (linAt a x wl wr b) r c := rfl

/-- Normalising depends on the matrix only through the row it is read at. -/
theorem unitAt_congr {M' : Nat} (o : Fin M → Fin 128 → EReal) (o' : Fin M' → Fin 128 → EReal) (r : Fin M) (r' : Fin M')
    (h : ∀ c, o' r' c = o r c) (c : Fin 128) : unitAt o' r' c = unitAt o r c := by
  unfold unitAt
  rw [h c]
  congr 2
  exact congrArg Ideal.sqrt (Finset.sum_congr rfl fun c' _ => by rw [h c'])

/-- ROWS RE-INDEXED.  If the rows of `a'`, `x'` are the rows `f r` of `a`, `x` (a block of consecutive rows, say),
    with the same weights and bias, then row `r` of the stage on the small arrays is row `f r` of the stage on the big ones. -/
theorem sage_rows {M' : Nat} (f : Fin M' → Fin M)
    (a x : (⟨2, ![M, 128]⟩ : Shape).Idx → EReal) (a' x' : (⟨2, ![M', 128]⟩ : Shape).Idx → EReal)
    (wl wr wl' wr' : (⟨2, ![128, 128]⟩ : Shape).Idx → EReal) (b b' : Fin 128 → EReal)
    (ha : ∀ r k, a' (ix2 r k) = a (ix2 (f r) k)) (hx : ∀ r k, x' (ix2 r k) = x (ix2 (f r) k))
    (hwl : wl' = wl) (hwr : wr' = wr) (hb : b' = b) (r : Fin M') (c : Fin 128) :
    sage a' x' wl' wr' b' (ix2 r c) = sage a x wl wr b (ix2 (f r) c) := by
  subst hwl hwr hb
  rw [sage_ix2, sage_ix2]
  refine unitAt_congr _ _ _ _ (fun c' => ?_) c
  unfold linAt
  simp only [ha, hx]

/-- The affine stage with the bias added before the second product instead of after it: the same number
    (addition of extended reals is commutative and associative). -/
theorem linAt_bias_first (a x : (⟨2, ![M, 128]⟩ : Shape).Idx → EReal) (wl wr : (⟨2, ![128, 128]⟩ : Shape).Idx → EReal)
    (b : Fin 128 → EReal) (r : Fin M) (c : Fin 128) :
    ((∑ k : Fin 128, a (ix2 r k) * wl (ix2 k c)) + b c) + (∑ k : Fin 128, x (ix2 r k) * wr (ix2 k c))
      = linAt a x wl wr b r c := by
  unfold linAt
  exact add_right_comm _ _ _

/-- A square matrix read with its two coordinates exchanged. -/
def tr (w : (⟨2, ![128, 128]⟩ : Shape).Idx → EReal) : (⟨2, ![128, 128]⟩ : Shape).Idx → EReal :=
  fun i => w (ix2 (i 1) (i 0))

/-- THE LAYER in terms of its parameters as they are given: both weight matrices are used transposed
    (entry (k, c) of the matrix applied is entry (c, k) of the parameter) and the bias is a plain vector. -/
def layer (a x : (⟨2, ![M, 128]⟩ : Shape).Idx → EReal) (Wl Wr : (⟨2, ![128, 128]⟩ : Shape).Idx → EReal)
    (bias : (⟨1, ![128]⟩ : Shape).Idx → EReal) : (⟨2, ![M, 128]⟩ : Shape).Idx → EReal :=
  sage a x (tr Wl) (tr Wr) (fun c => bias (ix1 c))

end Cert.SageNorm

end
-- ==== Proof.KernelHost.lean ====
/-
  The arrays the region reads that earlier host operations wrote, as terms of the program's arguments.
  Before the kernel is launched the host computes the neighbourhood means (gather the source rows, add them into
  the target rows, divide by the clamped counts), transposes each weight matrix and narrows its float format (the
  identity on extended reals), and recasts the bias vector as a one-row matrix.  The mean array is kept as ONE
  unopened term of the node features and the edge list; the weights read as transposes; the bias row as the vector.
-/
import proofs.«174101_j3229815407098_1_alg».proof.Proof.Gen.KernelIdeal.Frame
import proofs.«174101_j3229815407098_1_alg».proof.Proof.Spec
import Idealize.ShloMosaic.Lib.StableHlo.Run
import Idealize.ShloMosaic.Lib.ValueLayout

noncomputable section

namespace Cert.KernelIdeal.HostSide

open Cert.KernelIdeal Cert.KernelIdeal.Gen Cert.SageNorm
open Idealize.ShloMosaic Idealize.ShloMosaic.TcCoe Idealize.SL.Sem Idealize.ShloMosaic.ValueIdx

/-- The neighbourhood-mean array as the host operations before the region compute it from the node features `x0`
    and the edge list `x1`.  It is never opened: the other program applies the same operations to the same arguments. -/
def meanK {F : FTy → Type} [FloatOps F] (x0 : (⟨S50000x128, .f32⟩ : BufTy).Contents (Elt F))
    (x1 : (⟨S2x800000, .i32⟩ : BufTy).Contents (Elt F)) : (⟨S50000x128, .f32⟩ : BufTy).Contents (Elt F) :=
  Host.divf (Host.scatterAdd scatter_S50000x128_S800000x1_S800000x128_1_0_0_1 (broadcastInDim S50000x128 ![] bcast_S_S50000x128 (constant S_ .f32 0x00000000#32)) (broadcastInDim S800000x1 ![0] bcast_S800000_S800000x1_0 (shapeCast _ (extractStridedSlice S1x800000 ![1, 0] x1 slices_S2x800000_S1x800000_1_0) shapeCasts_S1x800000_S800000)) (Host.gather gather_S50000x128_S800000x1_S800000x128_1_0_n_n_0_1_1128 x0 (broadcastInDim S800000x1 ![0] bcast_S800000_S800000x1_0 (select (cmpi .slt (shapeCast _ (extractStridedSlice S1x800000 ![0, 0] x1 slices_S2x800000_S1x800000_0_0) shapeCasts_S1x800000_S800000) (broadcastInDim S800000 ![] bcast_S_S800000 (constantI S_ 32 0#32))) (addi (shapeCast _ (extractStridedSlice S1x800000 ![0, 0] x1 slices_S2x800000_S1x800000_0_0) shapeCasts_S1x800000_S800000) (broadcastInDim S800000 ![] bcast_S_S800000 (constantI S_ 32 50000#32))) (shapeCast _ (extractStridedSlice S1x800000 ![0, 0] x1 slices_S2x800000_S1x800000_0_0) shapeCasts_S1x800000_S800000))))) (broadcastInDim S50000x128 ![0, 1] bcast_S50000x1_S50000x128_0_1 (broadcastInDim S50000x1 ![0] bcast_S50000_S50000x1_0 (maximumf (Host.scatterAdd scatter_S50000_S800000x1_S800000_n_0_0_1 (broadcastInDim S50000 ![] bcast_S_S50000 (constant S_ .f32 0x00000000#32)) (broadcastInDim S800000x1 ![0] bcast_S800000_S800000x1_0 (shapeCast _ (extractStridedSlice S1x800000 ![1, 0] x1 slices_S2x800000_S1x800000_1_0) shapeCasts_S1x800000_S800000)) (broadcastInDim S800000 ![] bcast_S_S800000 (constant S_ .f32 0x3F800000#32))) (broadcastInDim S50000 ![] bcast_S_S50000 (constant S_ .f32 0x3F800000#32)))))

variable (m : (ℓ : Loc nD τ sig) → Buf (Elt Ideal) ℓ)

set_option maxRecDepth 8192 in
set_option maxHeartbeats 2000000 in
theorem V_mean (c : Dev nD) :
    (V m c main_v22 : S50000x128.Idx → EReal) = meanK (F := Ideal) (m ((c : Thread nD τ).loc main_arg0)) (m ((c : Thread nD τ).loc main_arg1)) := by
  dsimp only [Gen.V, Gen.hostOps0]; after_results_simp <;> rfl

set_option maxRecDepth 8192 in
set_option maxHeartbeats 2000000 in
/-- The first weight window's array: the parameter narrowed and transposed, as an array of extended reals. -/
theorem V_wl_term (c : Dev nD) : (V m c main_v24 : S128x128.Idx → EReal)
    = truncf (F := Ideal) .bf16 (transpose S128x128 [1, 0] (m ((c : Thread nD τ).loc main_arg2)) transposes_S128x128_S128x128_1_0) bitsLt_bf16_f32 := by
  dsimp only [Gen.V, Gen.hostOps0]; after_results_simp <;> rfl

set_option maxRecDepth 8192 in
set_option maxHeartbeats 2000000 in
theorem V_wr_term (c : Dev nD) : (V m c main_v26 : S128x128.Idx → EReal)
    = truncf (F := Ideal) .bf16 (transpose S128x128 [1, 0] (m ((c : Thread nD τ).loc main_arg4)) transposes_S128x128_S128x128_1_0) bitsLt_bf16_f32 := by
  dsimp only [Gen.V, Gen.hostOps0]; after_results_simp <;> rfl

set_option maxRecDepth 8192 in
set_option maxHeartbeats 2000000 in
theorem V_bias_term (c : Dev nD) : (V m c main_v27 : S1x128.Idx → EReal)
    = shapeCast S1x128 (m ((c : Thread nD τ).loc main_arg3)) shapeCasts_S128_S1x128 := by
  dsimp only [Gen.V, Gen.hostOps0]; after_results_simp <;> rfl

/-- A parameter matrix narrowed and transposed reads, at (p, q), the parameter at (q, p). -/
theorem tr_of_term (w : S128x128.Idx → EReal) :
    (truncf (F := Ideal) .bf16 (transpose S128x128 [1, 0] w transposes_S128x128_S128x128_1_0) bitsLt_bf16_f32 : FVec Ideal S128x128 .bf16) = tr w := by
  funext i
  obtain ⟨p, q, rfl⟩ : ∃ (p q : Fin 128), i = ix2 p q := ⟨i 0, i 1, eq_ix2 i⟩
  exact transpose_ix2_apply w transposes_S128x128_S128x128_1_0 p q

theorem V_wl (c : Dev nD) : (V m c main_v24 : S128x128.Idx → EReal) = tr (m ((c : Thread nD τ).loc main_arg2)) :=
  (V_wl_term m c).trans (tr_of_term _)

theorem V_wr (c : Dev nD) : (V m c main_v26 : S128x128.Idx → EReal) = tr (m ((c : Thread nD τ).loc main_arg4)) :=
  (V_wr_term m c).trans (tr_of_term _)

theorem V_bias (c : Dev nD) (k : Fin 128) :
    (V m c main_v27 : S1x128.Idx → EReal) (ix2 (0 : Fin 1) k) = (m ((c : Thread nD τ).loc main_arg3) : S128.Idx → EReal) (ix1 k) := by
  rw [V_bias_term]
  exact shapeCast_a_1a_apply (m ((c : Thread nD τ).loc main_arg3)) shapeCasts_S128_S1x128 0 k

end Cert.KernelIdeal.HostSide

end
-- ==== Proof.LibPlainDot.lean ====
/-
  A plain two-dimensional contraction (rows x inner times inner x columns, no batch axis) read at an index.
  At the extended reals the matrix unit's product into a zero accumulator and the host's dot product are both
  the sum, over the inner index k, of the left operand's entry (row, k) times the right operand's entry (k, column).
-/
import Idealize.ShloMosaic.Lib.ValueIdx
import Idealize.ShloMosaic.PureOps.Ideal.Laws
import Idealize.ShloMosaic.Lib.ValueLayout

noncomputable section

namespace Cert.PlainDot

open Idealize.ShloMosaic Idealize.ShloMosaic.ValueIdx

variable {M K N : Nat}

/-- The left operand is read on its row axis at the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand is read on its inner axis at the contraction index. -/
theorem lhs_inner (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand is read on its inner axis at the contraction index. -/
theorem rhs_inner (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand is read on its column axis at the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum re-indexed by the inner coordinate. -/
theorem sum_contr (A : (⟨2, ![M, K]⟩ : Shape).Idx → EReal) (B : (⟨2, ![K, N]⟩ : Shape).Idx → EReal)
    (j : (⟨2, ![M, N]⟩ : Shape).Idx) :
    (∑ q : (DotDims.plain M K N).contr.Idx, A ((DotDims.plain M K N).lhsIdx j q) * B ((DotDims.plain M K N).rhsIdx j q))
      = ∑ k : Fin K, A (ix2 (j 0) k) * B (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact (lhs_inner _ _).trans hk)
  have er : (DotDims.plain M K N).rhsIdx j ((contrEquiv1 (DotDims.plain M K N) K rfl rfl).symm k) = ix2 k (j 1) :=
    funext fun a => Fin.ext (by
      match a with
      | ⟨0, _⟩ => exact (rhs_inner _ _).trans hk
      | ⟨1, _⟩ => exact rhs_col _ _)
  exact congrArg₂ (· * ·) (congrArg A el) (congrArg B er)

/-- The matrix unit's product into the zero accumulator, at an output index: the plain sum of products. -/
theorem matmul_zero_apply {φ₁ φ₂ : FTy} (prec : Option ContractPrecision)
    (A : FVec Ideal (⟨2, ![M, K]⟩ : Shape) φ₁) (B : FVec Ideal (⟨2, ![K, N]⟩ : Shape) φ₂) (j : (⟨2, ![M, N]⟩ : Shape).Idx) :
    FloatOps.matmul (DotDims.plain M K N) prec A B (constant (⟨2, ![M, N]⟩ : Shape) .f32 0x00000000#32) j
      = ∑ k : Fin K, A (ix2 (j 0) k) * B (ix2 k (j 1)) :=
  (Ideal.matmul_constant_zero_apply (DotDims.plain M K N) prec A B j).trans (sum_contr A B j)

/-- The host's dot product at an output index: the same sum. -/
theorem dotGeneral_apply {φ₁ φ₂ : FTy} (prec : Option ContractPrecision) (sched : HostSchedule)
    (A : FVec Ideal (⟨2, ![M, K]⟩ : Shape) φ₁) (B : FVec Ideal (⟨2, ![K, N]⟩ : Shape) φ₂) (j : (⟨2, ![M, N]⟩ : Shape).Idx) :
    FloatOps.dotGeneral (DotDims.plain M K N) prec sched A B j
      = ∑ k : Fin K, A (ix2 (j 0) k) * B (ix2 k (j 1)) :=
  (Ideal.dotGeneral_apply (DotDims.plain M K N) prec sched A B j).trans (sum_contr A B j)

/-! ## A matrix product with a row added to every row -/

/-- The matrix product of `A` and `B` with the one-row array `b` added to each of its rows: the entry at
    (r, c) is `∑ k, A (r, k) * B (k, c) + b (0, c)`. -/
def affine (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => (∑ k : Fin K, A (ix2 (j 0) k) * B (ix2 k (j 1))) + b (ix2 (0 : Fin 1) (j 1))

/-- The matrix unit's product into a zero accumulator plus a one-row array broadcast over the rows is `affine`. -/
theorem matmul_add_row_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    addf (matmul (DotDims.plain M K N) prec A B (constant (⟨2, ![M, N]⟩ : Shape) .f32 0x00000000#32))
        (broadcastTo (⟨2, ![M, N]⟩ : Shape) b h) = affine A B b := by
  funext j
  obtain ⟨p, q, rfl⟩ : ∃ (p : Fin M) (q : Fin N), j = ix2 p q := ⟨j 0, j 1, eq_ix2 j⟩
  show FloatOps.matmul (DotDims.plain M K N) prec A B (constant (⟨2, ![M, N]⟩ : Shape) .f32 0x00000000#32) (ix2 p q)
      + broadcastTo (⟨2, ![M, N]⟩ : Shape) b h (ix2 p q) = _
  rw [matmul_zero_apply, broadcastTo_1b_ab_apply]
  rfl

/-- `affine` followed by the rectifier: each entry's maximum with the value of the zero word. -/
def affineRelu (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => max (affine A B b j) (Ideal.ofBits .f32 0x00000000#32)

/-- The same product and row, then the entrywise maximum with a splat of the zero word, is `affineRelu`. -/
theorem matmul_add_row_max_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    maximumf (addf (matmul (DotDims.plain M K N) prec A B (constant (⟨2, ![M, N]⟩ : Shape) .f32 0x00000000#32))
        (broadcastTo (⟨2, ![M, N]⟩ : Shape) b h))
      (broadcast (⟨2, ![M, N]⟩ : Shape) (Scalar.ofBits (F := Ideal) .f32 0x00000000#32)) = affineRelu A B b := by
  rw [matmul_add_row_eq]
  rfl

end Cert.PlainDot

end
-- ==== Proof.LibColumnForms.lean ====
/-
  Column forms of the layout operations, read at an index, and a row's sum.
  An array of one column per row arises whenever a quantity computed once per row (a row's length, a row's maximum)
  is kept with its row axis: the per-row vector is recast as a one-column matrix, and that matrix is spread over the
  columns.  Read at (row, column) both steps return the row's quantity.
-/
import Idealize.ShloMosaic.Lib.ValueIdx
import Idealize.ShloMosaic.Lib.ValueLayout
import Idealize.ShloMosaic.Lib.Pipeline.Value
import Idealize.ShloMosaic.PureOps.Ideal.Laws

noncomputable section

namespace Cert.ColumnForms

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the extended reals a sum reduction of an `[a, b]` array over its column axis reads, at row `p`,
    the sum over the columns of that row. -/
theorem rowSum_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] (⟨1, ![a]⟩ : Shape) src acc h hφ hacc (ix1 p) = ∑ c : Fin b, src (ix2 p c) :=
  (Ideal.multiReduction_add_single src acc h hφ hacc (ix1 p)).trans
    (Finset.sum_congr rfl fun c _ => congrArg src (funext fun d => Fin.ext (by
      match d with
      | ⟨0, _⟩ => rfl
      | ⟨1, _⟩ => rfl)))

end Cert.ColumnForms

end
-- ==== Proof.KernelPayload.lean ====
/-
  What the kernel body stores, as mathematics.
  The body's one stored value is built in two steps from the blocks it loads: an affine step — the block of
  neighbourhood means times the first weight matrix, plus the block of node rows times the second, plus the bias
  row spread over the rows; the narrowing of the operands to a shorter float format is the identity on extended
  reals — and a normalising step that divides every row by the larger of its Euclidean length and a small floor.
  Read at (row p, column q) the stored value is the specification's `sage` of the loaded blocks.
-/
import proofs.«174101_j3229815407098_1_alg».proof.Proof.Gen.KernelIdeal.Skeleton
import proofs.«174101_j3229815407098_1_alg».proof.Proof.Spec
import proofs.«174101_j3229815407098_1_alg».proof.Proof.LibPlainDot
import proofs.«174101_j3229815407098_1_alg».proof.Proof.LibColumnForms

noncomputable section

namespace Cert.KernelIdeal.Payload

open Cert.KernelIdeal Cert.KernelIdeal.Gen Cert.SageNorm Cert.ColumnForms
open Idealize.ShloMosaic Idealize.ShloMosaic.ValueIdx

variable {F : FTy → Type} [FloatOps F]

/-- The affine step: two matrix products into zero accumulators, added, plus the bias row over all rows. -/
def linTerm (v0 v3 : Vec F S5000x128 .f32) (v5 v7 : Vec F S128x128 .bf16) (v12 : Vec F S1x128 .f32) : FVec F S5000x128 .f32 :=
  addf
    (addf
      (matmul dot_S5000x128_S128x128_S5000x128_1_0_0_1_n_n none
        (truncf .bf16 (shapeCast S5000x128 v0 shapeCasts_S5000x128_S5000x128) bitsLt_bf16_f32)
        (shapeCast S128x128 v5 shapeCasts_S128x128_S128x128) (constant S5000x128 .f32 0x00000000#32))
      (matmul dot_S5000x128_S128x128_S5000x128_1_0_0_1_n_n none
        (truncf .bf16 v3 bitsLt_bf16_f32)
        (shapeCast S128x128 v7 shapeCasts_S128x128_S128x128) (constant S5000x128 .f32 0x00000000#32)))
    (broadcastTo S5000x128 (shapeCast S1x128 v12 shapeCasts_S1x128_S1x128) broadcasts_S1x128_S5000x128)

/-- The normalising step: each entry over the larger of its row's length and the floor. -/
def normTerm (o : FVec F S5000x128 .f32) : FVec F S5000x128 .f32 :=
  divf o
    (broadcastTo S5000x128
      (maximumf
        (sqrt (shapeCast S5000x1
          (multiReduction .add [1] S5000 (mulf o o) 0x00000000#32 reduces_S5000x128_S5000 (.inl rfl) rfl)
          shapeCasts_S5000_S5000x1))
        (broadcast S5000x1 (Scalar.ofBits .f32 0x2B8CBCCC#32)))
      broadcasts_S5000x1_S5000x128)

/-- The stored value is the normalising step applied to the affine step. -/
theorem pay_split (v0 v3 : Vec F S5000x128 .f32) (v5 v7 : Vec F S128x128 .bf16) (v12 : Vec F S1x128 .f32) :
    k0_pay1 v0 v3 v5 v7 v12 = normTerm (linTerm v0 v3 v5 v7 v12) := rfl

/-- The affine step at (p, q): both products are sums over the inner index, and the bias is read in its one row. -/
theorem linTerm_apply (v0 v3 : Vec Ideal S5000x128 .f32) (v5 v7 : Vec Ideal S128x128 .bf16) (v12 : Vec Ideal S1x128 .f32)
    (p : Fin 5000) (q : Fin 128) :
    linTerm (F := Ideal) v0 v3 v5 v7 v12 (ix2 p q) = linAt v0 v3 v5 v7 (fun c => v12 (ix2 (0 : Fin 1) c)) p q := by
  unfold linTerm
  show FloatOps.matmul (F := Ideal) (DotDims.plain 5000 128 128) none
          (truncf .bf16 (shapeCast S5000x128 v0 shapeCasts_S5000x128_S5000x128) bitsLt_bf16_f32)
          (shapeCast S128x128 v5 shapeCasts_S128x128_S128x128) (constant S5000x128 .f32 0x00000000#32) (ix2 p q)
        + FloatOps.matmul (F := Ideal) (DotDims.plain 5000 128 128) none
          (truncf .bf16 v3 bitsLt_bf16_f32)
          (shapeCast S128x128 v7 shapeCasts_S128x128_S128x128) (constant S5000x128 .f32 0x00000000#32) (ix2 p q)
        + broadcastTo S5000x128 (shapeCast S1x128 v12 shapeCasts_S1x128_S1x128) broadcasts_S1x128_S5000x128 (ix2 p q) = _
  rw [Cert.PlainDot.matmul_zero_apply, Cert.PlainDot.matmul_zero_apply, broadcastTo_1b_ab_apply]
  simp only [shapeCast_self]
  rfl

/-- The normalising step at (p, q): the row's sum of squares, its root, the floor, the quotient. -/
theorem normTerm_apply (o : FVec Ideal S5000x128 .f32) (p : Fin 5000) (q : Fin 128) :
    normTerm (F := Ideal) o (ix2 p q) = unitAt (fun r c => o (ix2 r c)) p q := by
  unfold normTerm
  rw [divf_apply, broadcastTo_a1_ab_apply, maximumf_apply, broadcast_apply]
  show Ideal.div (o (ix2 p q))
      (max (Ideal.sqrt (shapeCast S5000x1
          (multiReduction .add [1] S5000 (mulf o o) 0x00000000#32 reduces_S5000x128_S5000 (.inl rfl) rfl)
          shapeCasts_S5000_S5000x1 (ix2 p (0 : Fin 1))))
        (Ideal.ofBits .f32 0x2B8CBCCC#32)) = _
  rw [shapeCast_a_a1_apply]
  have hs : multiReduction .add [1] S5000 (mulf o o) 0x00000000#32 reduces_S5000x128_S5000 (.inl rfl) rfl (ix1 p)
      = ∑ c : Fin 128, (mulf o o) (ix2 p c) := rowSum_apply (mulf o o) _ _ _ _ p
  exact congrArg (fun s => Ideal.div (o (ix2 p q)) (max (Ideal.sqrt s) (Ideal.ofBits .f32 0x2B8CBCCC#32))) hs

/-- THE STORED VALUE is the specification's stage of the loaded blocks (the bias block read in its one row). -/
theorem pay_eq (v0 v3 : Vec Ideal S5000x128 .f32) (v5 v7 : Vec Ideal S128x128 .bf16) (v12 : Vec Ideal S1x128 .f32) :
    k0_pay1 (F := Ideal) v0 v3 v5 v7 v12 = sage v0 v3 v5 v7 (fun c => v12 (ix2 (0 : Fin 1) c)) := by
  funext j
  obtain ⟨p, q, rfl⟩ : ∃ (p : Fin 5000) (q : Fin 128), j = ix2 p q := ⟨j 0, j 1, eq_ix2 j⟩
  rw [pay_split, normTerm_apply, sage_ix2]
  exact unitAt_congr (linAt v0 v3 v5 v7 (fun c => v12 (ix2 (0 : Fin 1) c)))
    (fun r c => linTerm (F := Ideal) v0 v3 v5 v7 v12 (ix2 r c)) p p
    (fun c => linTerm_apply v0 v3 v5 v7 v12 p c) q

end Cert.KernelIdeal.Payload

end
-- ==== Proof.KernelIndex.lean ====
/-
  The grid's index maps, and where each window's block sits in its array.
  The grid has ten points.  At point t the two row-indexed inputs (the neighbourhood means and the node features) and
  the output are at row block t — rows 5000·t … 5000·t + 4999, all 128 columns — while the two weight matrices and the
  bias row are whole.  An element of a block sits at block index × block size + its coordinate inside the block.
-/
import proofs.«174101_j3229815407098_1_alg».proof.Proof.Gen.KernelIdeal.Points
import Idealize.ShloMosaic.Lib.Pipeline.Value
import Idealize.ShloMosaic.Lib.ValueIdx

noncomputable section

namespace Cert.KernelIdeal.Index

open Cert.KernelIdeal Cert.KernelIdeal.Gen
open Idealize.ShloMosaic Idealize.ShloMosaic.TcCoe Idealize.SL.Sem Idealize.ShloMosaic.ValueIdx
open Idealize.ShloMosaic.Pipeline (Dat)

/-! ## The index maps, decided over the ten grid points -/

theorem hz : (![0, 0] : Fin 2 → Nat) = fun _ => 0 := funext fun a => by fin_cases a <;> rfl

/-- The two row-indexed inputs move with the output's row block; the weights and the bias stay at block (0, 0);
    the output's row-block index is at most 9 and its column-block index is 0. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 9 ∧ win0_5.index t (1 : Fin 2) = 0 :=
  (by decide +kernel : ∀ t : Fin grid0.N, _)

/-- Every row block is some point's. -/
theorem idx_onto : ∀ q0 : Fin 10, ∃ t : Fin cfg0.N, win0_5.index t = ![q0.val, 0] :=
  (by decide +kernel : ∀ q0 : Fin 10, ∃ t : Fin grid0.N, win0_5.index t = ![q0.val, 0])

/-- The array row that row `r` of point `t`'s block is. -/
def rowOf (t : Fin cfg0.N) (r : Fin 5000) : Fin 50000 :=
  ⟨win0_5.index t (0 : Fin 2) * 5000 + r.val, by
    have h := (idx_facts t).2.2.2.2.2.2.2.2.2.2.1
    have := r.isLt
    omega⟩

/-! ## Where each window's block sits in its array -/

theorem emb_mean (t : Fin cfg0.N) (r : Fin 5000) (k : Fin 128) :
    ((cfg0.win 0).blk t).view.emb (ix2 r k) = (ix2 (rowOf t r) k : S50000x128.Idx) := by
  funext a; apply Fin.ext
  obtain ⟨e0, e1, -⟩ := idx_facts t
  match a with
  | ⟨0, _⟩ => show win0_0.index t (0 : Fin 2) * 5000 + 1 * r.val = win0_5.index t (0 : Fin 2) * 5000 + r.val; omega
  | ⟨1, _⟩ => show win0_0.index t (1 : Fin 2) * 128 + 1 * k.val = k.val; omega

theorem emb_x (t : Fin cfg0.N) (r : Fin 5000) (k : Fin 128) :
    ((cfg0.win 1).blk t).view.emb (ix2 r k) = (ix2 (rowOf t r) k : S50000x128.Idx) := by
  funext a; apply Fin.ext
  obtain ⟨-, -, e0, e1, -⟩ := idx_facts t
  match a with
  | ⟨0, _⟩ => show win0_1.index t (0 : Fin 2) * 5000 + 1 * r.val = win0_5.index t (0 : Fin 2) * 5000 + r.val; omega
  | ⟨1, _⟩ => show win0_1.index t (1 : Fin 2) * 128 + 1 * k.val = k.val; omega

theorem emb_wl (t : Fin cfg0.N) (y : S128x128.Idx) : ((cfg0.win 2).blk t).view.emb y = y := by
  funext a; apply Fin.ext
  obtain ⟨-, -, -, -, e0, e1, -⟩ := idx_facts t
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem emb_bias (t : Fin cfg0.N) (y : S1x128.Idx) : ((cfg0.win 3).blk t).view.emb y = y := by
  funext a; apply Fin.ext
  obtain ⟨-, -, -, -, -, -, e0, e1, -⟩ := idx_facts t
  match a with
  | ⟨0, _⟩ => show win0_3.index t (0 : Fin 2) * 1 + 1 * (y 0).val = (y 0).val; omega
  | ⟨1, _⟩ => show win0_3.index t (1 : Fin 2) * 128 + 1 * (y 1).val = (y 1).val; omega

theorem emb_wr (t : Fin cfg0.N) (y : S128x128.Idx) : ((cfg0.win 4).blk t).view.emb y = y := by
  funext a; apply Fin.ext
  obtain ⟨-, -, -, -, -, -, -, -, e0, e1, -⟩ := idx_facts t
  match a with
  | ⟨0, _⟩ => show win0_4.index t (0 : Fin 2) * 128 + 1 * (y 0).val = (y 0).val; omega
  | ⟨1, _⟩ => show win0_4.index t (1 : Fin 2) * 128 + 1 * (y 1).val = (y 1).val; omega

theorem emb_out (t : Fin cfg0.N) (r : Fin 5000) (q : Fin 128) :
    ((cfg0.win 5).blk t).view.emb (ix2 r q) = (ix2 (rowOf t r) q : S50000x128.Idx) := by
  funext a; apply Fin.ext
  obtain ⟨-, -, -, -, -, -, -, -, -, -, e0, e1⟩ := idx_facts t
  match a with
  | ⟨0, _⟩ => show win0_5.index t (0 : Fin 2) * 5000 + 1 * r.val = win0_5.index t (0 : Fin 2) * 5000 + r.val; omega
  | ⟨1, _⟩ => show win0_5.index t (1 : Fin 2) * 128 + 1 * q.val = q.val; omega

end Cert.KernelIdeal.Index

end
-- ==== Proof.KernelCover.lean ====
/-
  The ten row blocks tile the output array.
  An index (i, j) of the 50000 × 128 array lies in the block of the grid point whose row-block index is i / 5000:
  the block's rows are 5000·(i / 5000) … 5000·(i / 5000) + 4999 and its columns all 128.
-/
import proofs.«174101_j3229815407098_1_alg».proof.Proof.KernelIndex

noncomputable section

namespace Cert.KernelIdeal.Cover

open Cert.KernelIdeal Cert.KernelIdeal.Gen Cert.KernelIdeal.Index
open Idealize.ShloMosaic Idealize.ShloMosaic.TcCoe Idealize.SL.Sem Idealize.ShloMosaic.ValueIdx

/-- An index of the array is in point `t`'s block iff each coordinate is in the block's range on its axis. -/
theorem mem_blk5 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v28).slice (win0_5.rect t)).set ↔ _
  rw [View.set_slice_whole, Rect.mem_set_unit]
  exact Iff.rfl

/-- Row `i` is in the block of the point whose row-block index is `i / 5000`. -/
theorem cover5 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

end Cert.KernelIdeal.Cover

end
-- ==== Proof.KernelBlocks.lean ====
/-
  From the blocks to the array.
  Point t owns rows 5000·t … 5000·t + 4999 of the output and reads the same rows of the two row-indexed inputs,
  together with the whole of the two weight matrices and the bias row.  Every output row depends only on the same
  row of the inputs, so what point t writes is the restriction to its rows of ONE whole-array function of the arrays
  the region finds; the blocks tile the array, so the array ends holding that function.  The block equations are
  stated for ANY contents `W` of the core's buffers: they are facts about the windows, not about what the host
  operations before the region left there.
-/
import proofs.«174101_j3229815407098_1_alg».proof.Proof.Gen.KernelIdeal.Value
import proofs.«174101_j3229815407098_1_alg».proof.Proof.KernelPayload
import proofs.«174101_j3229815407098_1_alg».proof.Proof.KernelIndex
import proofs.«174101_j3229815407098_1_alg».proof.Proof.KernelCover
import Idealize.ShloMosaic.Lib.Pipeline.Value

noncomputable section

namespace Cert.KernelIdeal.Blocks

open Cert.KernelIdeal Cert.KernelIdeal.Gen Cert.KernelIdeal.Payload Cert.KernelIdeal.Index Cert.KernelIdeal.Cover Cert.SageNorm
open Idealize.ShloMosaic Idealize.ShloMosaic.TcCoe Idealize.SL.Sem Idealize.ShloMosaic.ValueIdx
open Idealize.ShloMosaic.Pipeline (Dat)

section AnyContents

variable (c : Dev nD) (W : (b : Ref sig .tc) → Buf (Elt Ideal) ((c : Thread nD τ).loc b))

/-- Window `w`'s block at point `t`, read off its array at contents `W`. -/
def blkOf (w : Fin cfg0.W) (t : Fin cfg0.N) : ((cfg0.win w).xblock (cfg0.grid.coords t)).Idx → Elt Ideal (cfg0.win w).elt :=
  ((cfg0.win w).blk t).view.read (Elt Ideal) (W (Pipeline.arrRef spec0 w))

theorem rd_mean (t : Fin cfg0.N) (r : Fin 5000) (k : Fin 128) :
    blkOf c W 0 t (ix2 r k) = (W main_v22 : S50000x128.Idx → EReal) (ix2 (rowOf t r) k) := by
  show (W main_v22 : S50000x128.Idx → EReal) (((cfg0.win 0).blk t).view.emb (ix2 r k)) = _
  rw [emb_mean]

theorem rd_x (t : Fin cfg0.N) (r : Fin 5000) (k : Fin 128) :
    blkOf c W 1 t (ix2 r k) = (W main_arg0 : S50000x128.Idx → EReal) (ix2 (rowOf t r) k) := by
  show (W main_arg0 : S50000x128.Idx → EReal) (((cfg0.win 1).blk t).view.emb (ix2 r k)) = _
  rw [emb_x]

theorem rd_wl (t : Fin cfg0.N) : blkOf c W 2 t = (W main_v24 : S128x128.Idx → EReal) := by
  funext y
  show (W main_v24 : S128x128.Idx → EReal) (((cfg0.win 2).blk t).view.emb y) = _
  rw [emb_wl]

theorem rd_bias (t : Fin cfg0.N) (k : Fin 128) :
    blkOf c W 3 t (ix2 (0 : Fin 1) k) = (W main_v27 : S1x128.Idx → EReal) (ix2 (0 : Fin 1) k) := by
  show (W main_v27 : S1x128.Idx → EReal) (((cfg0.win 3).blk t).view.emb (ix2 (0 : Fin 1) k)) = _
  rw [emb_bias]

theorem rd_wr (t : Fin cfg0.N) : blkOf c W 4 t = (W main_v26 : S128x128.Idx → EReal) := by
  funext y
  show (W main_v26 : S128x128.Idx → EReal) (((cfg0.win 4).blk t).view.emb y) = _
  rw [emb_wr]

/-- The whole-array function of the five arrays the windows stage, at contents `W`. -/
def wholeOf : S50000x128.Idx → EReal :=
  sage (W main_v22 : S50000x128.Idx → EReal) (W main_arg0 : S50000x128.Idx → EReal)
    (W main_v24 : S128x128.Idx → EReal) (W main_v26 : S128x128.Idx → EReal)
    (fun k => (W main_v27 : S1x128.Idx → EReal) (ix2 (0 : Fin 1) k))

/-- A block of values that is, row by row, a whole-array function `G` on the block's rows is what reading `G`
    through the output block gives. -/
theorem read_of_rows (G : S50000x128.Idx → EReal) (t : Fin cfg0.N) (Y : Vec Ideal S5000x128 .f32)
    (h : ∀ (r : Fin 5000) (q : Fin 128), Y (ix2 r q) = G (ix2 (rowOf t r) q)) :
    (cfg0.win 5).cut (grid0.coords t) Y = ((cfg0.win 5).blk t).view.read (Elt Ideal) G := by
  funext j
  obtain ⟨r, q, rfl⟩ : ∃ (r : Fin 5000) (q : Fin 128), j = ix2 r q := ⟨j 0, j 1, eq_ix2 j⟩
  show Y (ix2 r q) = G (((cfg0.win 5).blk t).view.emb (ix2 r q))
  rw [emb_out t r q]
  exact h r q

/-- The body's result on the blocks at point `t` is the row block of the whole-array function. -/
theorem block_eq (t : Fin cfg0.N) :
    (cfg0.win 5).cut (grid0.coords t) (out0_5 (blkOf c W 0 t) (blkOf c W 1 t) (blkOf c W 2 t) (blkOf c W 3 t) (blkOf c W 4 t))
      = ((cfg0.win 5).blk t).view.read (Elt Ideal) (wholeOf c W) := by
  unfold out0_5
  rw [View.canon_unit_zero hz]
  simp only [View.ld_unit_zero (S := S5000x128) hz, View.ld_unit_zero (S := S128x128) hz, View.ld_unit_zero (S := S1x128) hz]
  rw [pay_eq]
  refine read_of_rows (wholeOf c W) t _ (fun r q => ?_)
  exact sage_rows (rowOf t) (W main_v22 : S50000x128.Idx → EReal) (W main_arg0 : S50000x128.Idx → EReal)
    (blkOf c W 0 t) (blkOf c W 1 t) (W main_v24 : S128x128.Idx → EReal) (W main_v26 : S128x128.Idx → EReal)
    (blkOf c W 2 t) (blkOf c W 4 t)
    (fun k => (W main_v27 : S1x128.Idx → EReal) (ix2 (0 : Fin 1) k)) (fun k => blkOf c W 3 t (ix2 (0 : Fin 1) k))
    (rd_mean c W t) (rd_x c W t) (rd_wl c W t) (rd_wr c W t) (funext fun k => rd_bias c W t k) r q

end AnyContents

variable (m : (ℓ : Loc nD τ sig) → Buf (Elt Ideal) ℓ)

/-- WHAT POINT `t` WRITES BACK is its row block of the whole-array function of the arrays at region entry. -/
theorem flushed5_eq (c : Dev nD) (t : Fin cfg0.N) :
    (dats m 0 c).flushed 5 t = ((cfg0.win 5).blk t).view.read (Elt Ideal) (wholeOf c (V m c)) := by
  rw [Value.flushed5]
  exact block_eq c (V m c) t

/-- THE ARRAY after the run is the whole-array function of the arrays at region entry. -/
theorem final5 (c : Dev nD) : (dats m 0 c).arrAt 5 cfg0.N = wholeOf c (V m c) :=
  (dats m 0 c).arrAt_eq_of_cover 5 (wholeOf c (V m c)) (fun t _ => flushed5_eq m c t) cover5

end Cert.KernelIdeal.Blocks

end
-- ==== Proof.KernelValue.lean ====
/-
  The array the kernel leaves, as the layer of the program's arguments.
  The region ends with its output array at the whole-array function of the five arrays its windows stage.  Those
  arrays are, as the region finds them: the neighbourhood means — one unopened host term of the node features and the
  edge list —, the node features themselves, each weight parameter transposed, and the bias vector as a one-row
  matrix.  Substituting them gives the layer of the arguments; the arguments themselves end unchanged.
-/
import proofs.«174101_j3229815407098_1_alg».proof.Proof.KernelHost
import proofs.«174101_j3229815407098_1_alg».proof.Proof.KernelBlocks

noncomputable section

namespace Cert.KernelIdeal.RowValue

open Cert.KernelIdeal Cert.KernelIdeal.Gen Cert.KernelIdeal.HostSide Cert.KernelIdeal.Blocks Cert.SageNorm
open Idealize.ShloMosaic Idealize.ShloMosaic.TcCoe Idealize.SL.Sem Idealize.ShloMosaic.ValueIdx

variable (m : (ℓ : Loc nD τ sig) → Buf (Elt Ideal) ℓ) (ρ : Dev nD → PrngReg)

/-- The whole-array function at region entry is the layer of the arguments. -/
theorem whole_eq (c : Dev nD) :
    wholeOf c (V m c) = layer (meanK (F := Ideal) (m ((c : Thread nD τ).loc main_arg0)) (m ((c : Thread nD τ).loc main_arg1)))
      (m ((c : Thread nD τ).loc main_arg0)) (m ((c : Thread nD τ).loc main_arg2)) (m ((c : Thread nD τ).loc main_arg4)) (m ((c : Thread nD τ).loc main_arg3)) := by
  have h1 : (V m c main_v22 : S50000x128.Idx → EReal) = meanK (F := Ideal) (m ((c : Thread nD τ).loc main_arg0)) (m ((c : Thread nD τ).loc main_arg1)) := V_mean m c
  have h2 : (V m c main_arg0 : S50000x128.Idx → EReal) = (m ((c : Thread nD τ).loc main_arg0)) := V_main_arg0 m c
  have h3 : (V m c main_v24 : S128x128.Idx → EReal) = tr (m ((c : Thread nD τ).loc main_arg2)) := V_wl m c
  have h4 : (V m c main_v26 : S128x128.Idx → EReal) = tr (m ((c : Thread nD τ).loc main_arg4)) := V_wr m c
  have h5 : (fun k : Fin 128 => (V m c main_v27 : S1x128.Idx → EReal) (ix2 (0 : Fin 1) k))
      = fun k : Fin 128 => ((m ((c : Thread nD τ).loc main_arg3)) : S128.Idx → EReal) (ix1 k) := funext fun k => V_bias m c k
  unfold wholeOf layer
  rw [h1, h2, h3, h4, h5]

/-- Every weakly fair execution of the kernel's program ends with its result at the layer of the arguments and the
    arguments unchanged. -/
theorem run : θ_run defs (onTc (τ := τ) (main (F := Ideal))) ⟨m, fun _ => 0, ρ⟩ fun r => ∀ c : Dev nD,
      r.2.mem ((c : Thread nD τ).loc main_v28)
        = layer (meanK (F := Ideal) (m ((c : Thread nD τ).loc main_arg0)) (m ((c : Thread nD τ).loc main_arg1)))
            (m ((c : Thread nD τ).loc main_arg0)) (m ((c : Thread nD τ).loc main_arg2)) (m ((c : Thread nD τ).loc main_arg4)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final5 m c).trans (whole_eq m c)), (h c).2⟩)
    (Value.run_blocks m ρ)

end Cert.KernelIdeal.RowValue

end
-- ==== Proof.RefValue.lean ====
/-
  The reference program's result, as the same layer.
  Read one operation at a time the reference computes, at (row r, column c): the product of the mean array with the
  first weight matrix transposed, plus the bias, plus the product of the node features with the second weight matrix
  transposed; then the root of the row's sum of squares (from a zero start), its larger with the floor, and the
  quotient.  The only difference from the kernel's arithmetic is where the bias is added, which addition of extended
  reals does not see.  The mean array is the stage the generated reading names and is left closed.
-/
import proofs.«174101_j3229815407098_1_alg».proof.Proof.Gen.ReferenceIdeal.Read
import proofs.«174101_j3229815407098_1_alg».proof.Proof.Spec

noncomputable section

namespace Cert.ReferenceIdeal.RefValue

open Cert.ReferenceIdeal Cert.ReferenceIdeal.Read Cert.SageNorm
open Idealize.ShloMosaic Idealize.ShloMosaic.ValueIdx

/-- Over ANY array `o`: its entry over the larger of the root of (zero plus) its row's sum of squares and the
    floor, spelt with the host's operations, is the specification's normalised entry. -/
theorem unit_of_stage (o : S50000x128.Idx → EReal) (r : Fin 50000) (c : Fin 128) :
    FloatOps.hostDivf (F := Ideal) (φ := .f32) (o (ix2 r c))
        (FloatOps.maximumf (F := Ideal) (φ := .f32)
          (FloatOps.hostUnary (F := Ideal) (φ := .f32) .sqrt
            (FloatOps.ofBits (F := Ideal) .f32 0x00000000#32 + ∑ k : Fin 128, o (ix2 r k) * o (ix2 r k)))
          (FloatOps.ofBits (F := Ideal) .f32 0x2B8CBCCC#32))
      = unitAt (fun r' c' => o (ix2 r' c')) r c := by
  rw [Ideal.hostDivf_def, Ideal.maximumf_def, Ideal.hostUnary_sqrt_def, Ideal.ofBits_def, Ideal.ofBits_def,
    Ideal.ofBits_zero_f32, zero_add]
  rfl

/-- Over ANY mean array `a`: the two products with the bias added between them are the specification's affine entry. -/
theorem lin_of_stage (a x0 : S50000x128.Idx → EReal) (w2 w4 : S128x128.Idx → EReal) (b : S128.Idx → EReal)
    (r : Fin 50000) (c : Fin 128) :
    FloatOps.addf (F := Ideal) (φ := .f32)
        (FloatOps.addf (F := Ideal) (φ := .f32) (∑ k : Fin 128, a (ix2 r k) * tr w2 (ix2 k c)) (b (ix1 c)))
        (∑ k : Fin 128, x0 (ix2 r k) * tr w4 (ix2 k c))
      = linAt a x0 (tr w2) (tr w4) (fun k => b (ix1 k)) r c := by
  rw [Ideal.addf_def, Ideal.addf_def]
  exact linAt_bias_first a x0 (tr w2) (tr w4) (fun k => b (ix1 k)) r c

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal)) (x4 : (⟨S128x128, .f32⟩ : BufTy).Contents (Elt Ideal))

/-- The affine stage of the reference at (r, c) is the specification's, the bias added between the two products. -/
theorem out_apply (r : Fin 50000) (c : Fin 128) :
    val_main_v30 (F := Ideal) x0 x1 x2 x3 x4 (ix2 r c)
      = linAt (val_main_v22 (F := Ideal) x0 x1) x0 (tr x2) (tr x4) (fun k => x3 (ix1 k)) r c := by
  have e1 : ∀ k : Fin 128, lidx_main_v24 (ix2 r c) k = ix2 r k := fun k =>
    funext fun a => Fin.ext (by match a with | ⟨0, _⟩ => rfl | ⟨1, _⟩ => rfl)
  have e2 : ∀ k : Fin 128, idx_main_v23 (ridx_main_v24 (ix2 r c) k) = ix2 c k := fun k =>
    funext fun a => Fin.ext (by match a with | ⟨0, _⟩ => rfl | ⟨1, _⟩ => rfl)
  have e3 : idx_main_v25 (idx_main_v26 (ix2 r c)) = ix1 c :=
    funext fun a => Fin.ext (by match a with | ⟨0, _⟩ => rfl)
  have e4 : ∀ k : Fin 128, lidx_main_v29 (ix2 r c) k = ix2 r k := fun k =>
    funext fun a => Fin.ext (by match a with | ⟨0, _⟩ => rfl | ⟨1, _⟩ => rfl)
  have e5 : ∀ k : Fin 128, idx_main_v28 (ridx_main_v29 (ix2 r c) k) = ix2 c k := fun k =>
    funext fun a => Fin.ext (by match a with | ⟨0, _⟩ => rfl | ⟨1, _⟩ => rfl)
  rw [val_main_v30_apply, val_main_v27_apply, val_main_v24_apply, val_main_v26_apply, val_main_v25_apply, val_main_v29_apply, e3]
  generalize val_main_v22 (F := Ideal) x0 x1 = a
  have s1 : (∑ k : Fin 128, a (lidx_main_v24 (ix2 r c) k) * val_main_v23 (F := Ideal) x2 (ridx_main_v24 (ix2 r c) k))
      = ∑ k : Fin 128, a (ix2 r k) * tr x2 (ix2 k c) :=
    Finset.sum_congr rfl fun k _ => by rw [e1 k, val_main_v23_apply, e2 k]; rfl
  have s2 : (∑ k : Fin 128, x0 (lidx_main_v29 (ix2 r c) k) * val_main_v28 (F := Ideal) x4 (ridx_main_v29 (ix2 r c) k))
      = ∑ k : Fin 128, x0 (ix2 r k) * tr x4 (ix2 k c) :=
    Finset.sum_congr rfl fun k _ => by rw [e4 k, val_main_v28_apply, e5 k]; rfl
  rw [s1, s2]
  exact lin_of_stage a x0 x2 x4 x3 r c

/-- The square of the affine stage, entry by entry. -/
theorem sq_apply (i : S50000x128.Idx) :
    val_main_call0_v0 (F := Ideal) x0 x1 x2 x3 x4 i
      = val_main_v30 (F := Ideal) x0 x1 x2 x3 x4 i * val_main_v30 (F := Ideal) x0 x1 x2 x3 x4 i := by
  rw [val_main_call0_v0_apply, Ideal.mulf_def]

/-- The reference's result at (r, c): its affine stage over the larger of that row's length and the floor. -/
theorem res_apply (r : Fin 50000) (c : Fin 128) :
    val_main_v35 (F := Ideal) x0 x1 x2 x3 x4 (ix2 r c)
      = unitAt (fun r' c' => val_main_v30 (F := Ideal) x0 x1 x2 x3 x4 (ix2 r' c')) r c := by
  have e6 : ∀ k : Fin 128, idx_main_call0_v1 (idx_main_call0_v2 (idx_main_v34 (ix2 r c))) k = ix2 r k := fun k =>
    funext fun a => Fin.ext (by match a with | ⟨0, _⟩ => rfl | ⟨1, _⟩ => rfl)
  have s : (∑ k : Fin 128, val_main_call0_v0 (F := Ideal) x0 x1 x2 x3 x4 (idx_main_call0_v1 (idx_main_call0_v2 (idx_main_v34 (ix2 r c))) k))
      = ∑ k : Fin 128, val_main_v30 (F := Ideal) x0 x1 x2 x3 x4 (ix2 r k) * val_main_v30 (F := Ideal) x0 x1 x2 x3 x4 (ix2 r k) :=
    Finset.sum_congr rfl fun k _ => by rw [e6 k, sq_apply]
  rw [val_main_v35_apply, val_main_v34_apply, val_main_v33_apply, val_main_v31_apply, val_main_call0_v2_apply,
    val_main_call0_v1_apply, val_main_v32_apply, val_main_cst_4_apply, val_main_call0_cst_apply, s]
  generalize val_main_v30 (F := Ideal) x0 x1 x2 x3 x4 = o
  exact unit_of_stage o r c

/-- THE REFERENCE'S RESULT is the layer of the arguments, the mean array being its own earlier stage. -/
theorem res_eq :
    val_main_v35 (F := Ideal) x0 x1 x2 x3 x4 = layer (val_main_v22 (F := Ideal) x0 x1) x0 x2 x4 x3 := by
  funext j
  obtain ⟨r, c, rfl⟩ : ∃ (r : Fin 50000) (c : Fin 128), j = ix2 r c := ⟨j 0, j 1, eq_ix2 j⟩
  rw [res_apply]
  unfold layer
  rw [sage_ix2]
  exact unitAt_congr (linAt (val_main_v22 (F := Ideal) x0 x1) x0 (tr x2) (tr x4) (fun k => x3 (ix1 k)))
    (fun r' c' => val_main_v30 (F := Ideal) x0 x1 x2 x3 x4 (ix2 r' c')) r r
    (fun c' => out_apply x0 x1 x2 x3 x4 r c') c

end Cert.ReferenceIdeal.RefValue

end
-- ==== Proof.lean ====
/-
  A graph layer's dense stage: the kernel against its reference, over the extended reals.

  Both programs first form, with the same host operations, the array of neighbourhood means: for every node the sum
  of the feature rows of the edges' sources pointing at it, divided by the number of such edges (at least one).  The
  kernel then computes, ten row blocks of 5000 rows at a time,
      out = mean · Wlᵀ + x · Wrᵀ + b        and        out / max(‖out‖₂ per row, floor),
  where the reference computes  mean · Wlᵀ + b + x · Wrᵀ  on the whole array and normalises in the same way.
  On the extended reals a change of float format is the identity and the matrix unit's product into a zero
  accumulator is the host's dot product, so the two differ only in where the bias is added — and addition of
  extended reals is commutative and associative.  No finiteness of the inputs is needed.

  The kernel side: the stored value of the body is the specification's function of the loaded blocks
  (Proof/KernelPayload.lean); every output row depends on the same input row only, so the ten blocks are the
  restrictions of one whole-array function and tile the array (Proof/KernelIndex.lean, KernelCover.lean,
  KernelBlocks.lean); the arrays the region reads are the host's terms of the arguments (Proof/KernelHost.lean,
  KernelValue.lean).  The reference side: its run read one operation at a time is the same function
  (Proof/RefValue.lean).  The mean array is carried through as one term, the same in both programs.
-/
import proofs.«174101_j3229815407098_1_alg».proof.Defs
import proofs.«174101_j3229815407098_1_alg».proof.Proof.Gen.Kernel
import proofs.«174101_j3229815407098_1_alg».proof.Proof.Gen.Kernel.Skeleton
import proofs.«174101_j3229815407098_1_alg».proof.Proof.Gen.Kernel.Launch
import proofs.«174101_j3229815407098_1_alg».proof.Proof.Gen.Kernel.Points
import proofs.«174101_j3229815407098_1_alg».proof.Proof.Gen.Kernel.Frame
import proofs.«174101_j3229815407098_1_alg».proof.Proof.Gen.KernelIdeal
import proofs.«174101_j3229815407098_1_alg».proof.Proof.Gen.KernelIdeal.Skeleton
import proofs.«174101_j3229815407098_1_alg».proof.Proof.Gen.KernelIdeal.Launch
import proofs.«174101_j3229815407098_1_alg».proof.Proof.Gen.KernelIdeal.Points
import proofs.«174101_j3229815407098_1_alg».proof.Proof.Gen.KernelIdeal.Frame
import proofs.«174101_j3229815407098_1_alg».proof.Proof.Gen.ReferenceIdeal
import proofs.«174101_j3229815407098_1_alg».proof.Proof.Gen.Pre_finite_inputs
import proofs.«174101_j3229815407098_1_alg».proof.Proof.Gen.KernelIdeal.Value
import proofs.«174101_j3229815407098_1_alg».proof.Proof.Gen.ReferenceIdeal.Run
import proofs.«174101_j3229815407098_1_alg».proof.Proof.Gen.ReferenceIdeal.Read
import proofs.«174101_j3229815407098_1_alg».proof.Proof.KernelValue
import proofs.«174101_j3229815407098_1_alg».proof.Proof.RefValue
import Idealize.ShloMosaic.Adequacy
import Idealize.ShloMosaic.Init

noncomputable section

namespace Cert.Proof

open Idealize.ShloMosaic Idealize.SL.Sem Cert.SageNorm

/-- The neighbourhood-mean array is the same term in both programs: the same host operations of the same two
    arguments (the two printed programs spell the operations' side conditions under different names). -/
theorem mean_agree (x0 : (⟨Cert.KernelIdeal.S50000x128, .f32⟩ : BufTy).Contents (Elt Ideal))
    (x1 : (⟨Cert.KernelIdeal.S2x800000, .i32⟩ : BufTy).Contents (Elt Ideal)) :
    Cert.KernelIdeal.HostSide.meanK (F := Ideal) x0 x1 = Cert.ReferenceIdeal.Read.val_main_v22 (F := Ideal) x0 x1 := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the layer of the arguments: the kernel's blocks assembled, the reference's stages read;
    the arguments agree, and the mean array is one term. -/
theorem algebraic : Cert.algebraic_KernelIdeal_ReferenceIdeal := by
  intro m ρ m' ρ' _ hagree
  refine ⟨_, Cert.KernelIdeal.RowValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ReferenceIdeal.RefValue.res_eq,
    (hagree c).1, (hagree c).2.1, (hagree c).2.2.1, (hagree c).2.2.2.1, (hagree c).2.2.2.2, ← mean_agree]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
